-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) (main_arg2 : FVec F S1000x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 1000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩
abbrev S16384x1 : Shape := ⟨2, ![16384, 1]⟩
abbrev S32x1x128 : Shape := ⟨3, ![32, 1, 128]⟩
abbrev S512x1000 : Shape := ⟨2, ![512, 1000]⟩
abbrev S512x1 : Shape := ⟨2, ![512, 1]⟩
abbrev S1x1x128 : Shape := ⟨3, ![1, 1, 128]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩

abbrev nBuf : Space → Nat
  | .hbm => 18
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1000x1000, .bf16⟩
  | .hbm, ⟨13, _⟩ => ⟨S32x1x128, .f32⟩
  | .hbm, ⟨14, _⟩ => ⟨S32x1x1, .f32⟩
  | .hbm, ⟨15, _⟩ => ⟨S32, .f32⟩
  | .hbm, ⟨16, _⟩ => ⟨S_, .f32⟩
  | .hbm, ⟨17, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1000x1000, .bf16⟩
  | .local _ .vmem, ⟨5, _⟩ => ⟨S1x1x128, .f32⟩
  | .local _ .vmem, ⟨6, _⟩ => ⟨S1x1x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  shapeCasts_S16384_S16384x1 : S16384.ShapeCasts S16384x1
  bitsLt_bf16_f32 : FTy.bits .bf16 < FTy.bits .f32
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  dot_S512x1000_S1000x1000_S512x1000_1_0_0_1_n_n_wf : DotDims.WF S512x1000 S1000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S1000x1000.size a
  hwx0_2 : ∀ i : grid0.Coords, EltTy.bits .bf16 = 32 ∨ (Rect.block (s := S1000x1000) S1000x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

def dot_S512x1000_S1000x1000_S512x1000_1_0_0_1_n_n : DotDims S512x1000 S1000x1000 S512x1000 where
  lhsContracting := [1]
  rhsContracting := [0]
  lhsNonContracting := [0]
  rhsNonContracting := [1]
  lhsBatch := []
  rhsBatch := []
  wf := dot_S512x1000_S1000x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩
abbrev S16384x1 : Shape := ⟨2, ![16384, 1]⟩
abbrev S16384x2 : Shape := ⟨2, ![16384, 2]⟩

abbrev nBuf : Space → Nat
  | .hbm => 93
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x1, .f32⟩
  | .hbm, ⟨23, _⟩ => ⟨S16384x1000, .f32⟩
  | .hbm, ⟨24, _⟩ => ⟨S16384x1000, .f32⟩
  | .hbm, ⟨25, _⟩ => ⟨S16384x1000, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x1, .f32⟩
  | .hbm, ⟨30, _⟩ => ⟨S16384x1000, .f32⟩
  | .hbm, ⟨31, _⟩ => ⟨S16384x1000, .f32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16384x1, .i32⟩
  | .hbm, ⟨49, _⟩ => ⟨S16384x2, .i32⟩
  | .hbm, ⟨50, _⟩ => ⟨S16384, .f32⟩
  | .hbm, ⟨51, _⟩ => ⟨S16384x1000, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16384x1, .i32⟩
  | .hbm, ⟨68, _⟩ => ⟨S16384x2, .i32⟩
  | .hbm, ⟨69, _⟩ => ⟨S16384, .f32⟩
  | .hbm, ⟨70, _⟩ => ⟨S16384, .f32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x1, .i32⟩
  | .hbm, ⟨87, _⟩ => ⟨S16384x2, .i32⟩
  | .hbm, ⟨88, _⟩ => ⟨S16384, .f32⟩
  | .hbm, ⟨89, _⟩ => ⟨S16384, .f32⟩
  | .hbm, ⟨90, _⟩ => ⟨S16384, .f32⟩
  | .hbm, ⟨91, _⟩ => ⟨S_, .f32⟩
  | .hbm, ⟨92, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  concatenates_S16384x1_S16384x1_S16384x2_d1 : Shape.Concatenates [S16384x1, S16384x1] S16384x2 1
  reducesTo_S16384_S_d0 : S16384.ReducesTo [0] S_
  gather_S16384x1000_S16384x2_S16384_n_01_n_n_01_1_11_wf : GatherDims.WF S16384x1000 S16384x2 S16384 [] [0, 1] [] [0, 1] [] 1 ![1, 1]
  dot_S16384x1000_S1000x1000_S16384x1000_1_0_0_1_n_n_wf : DotDims.WF S16384x1000 S1000x1000 S16384x1000 [1] [0] [0] [1] [] []

variable [Facts₀]

def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def dot_S16384x1000_S1000x1000_S16384x1000_1_0_0_1_n_n : DotDims S16384x1000 S1000x1000 S16384x1000 where
  lhsContracting := [1]
  rhsContracting := [0]
  lhsNonContracting := [0]
  rhsNonContracting := [1]
  lhsBatch := []
  rhsBatch := []
  wf := dot_S16384x1000_S1000x1000_S16384x1000_1_0_0_1_n_n_wf

class Facts : Prop extends Facts₀ where

variable [Facts]
-- ==== Proof.LibTRefRoundTrip.lean ====
/- Transport of contents along a typed reference's type equation, there and back.

   A typed reference carries the type `T` of the tensor value its buffer holds, with a proof that the buffer's own
   type is `T`. Contents at `T` are moved to the buffer's type and back by transport along that proof. Going there
   and coming back composes the two transports into one along an equation of `T`'s contents with themselves, which is
   the identity; and the same the other way round. Neither statement evaluates the buffer's type, so a term in which
   every intermediate value of an inlined function is written to its buffer and read back (a transport pair at each
   value) collapses to the plain composition of the function's operations, whatever their number. -/
import Idealize.ShloMosaic.Lib.StableHlo

namespace Cert.TRefRoundTrip

open Idealize.ShloMosaic Idealize.ShloMosaic.StableHlo

/-- Contents moved to a buffer's own type and back are the contents. -/
theorem ofBuf_toBuf {sig : RefSig} {Val : EltTy → Type} {T : BufTy} (x : TRef sig T) (v : T.Contents Val) :
    x.ofBuf (x.toBuf v) = v := by
  show cast _ (cast _ v) = v
  rw [cast_cast]
  exact cast_eq _ _

/-- A buffer's contents moved to the carried type and back are the buffer's contents. -/
theorem toBuf_ofBuf {sig : RefSig} {Val : EltTy → Type} {T : BufTy} (x : TRef sig T) (v : x.ref.ty.Contents Val) :
    x.toBuf (x.ofBuf v) = v := by
  show cast _ (cast _ v) = v
  rw [cast_cast]
  exact cast_eq _ _

end Cert.TRefRoundTrip
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Spec.lean ====
/- The loss both programs compute, as one function of the argument arrays.

   For a row `r` of the logits `x` (16384 rows of 1000 entries) write `M r` for the row's largest entry,
   `e r j = exp (x r j - M r)` for the shifted exponentials, `s r = Σ j, e r j` for their sum, and let `t` be the
   row's target column. The row's term is

       (e r t / Σ k, e r k · T k t) · (log (s r) - (x r t - M r)),

   the importance weight times the cross entropy; the loss is the sum of the terms over the rows.

   The reference spells the weight through the probabilities `p r j = e r j / s r`, as
   `p r t / Σ k, p r k · T k t`, and the cross entropy as `-((x r t - M r) - log (s r))`. On real-valued
   arrays `s r` is a positive real, so it cancels from the weight (also when the mixture `Σ k, e r k · T k t` is
   zero: both quotients are then `+∞`, a positive real over zero); at an infinity the two spellings differ,
   which is why the statements below ask for real entries.

   The kernel adds the terms 512 rows at a time and then adds the 32 partial sums: the same sum, regrouped. -/
import Idealize.ShloMosaic.PureOps.Ideal
import Idealize.ShloMosaic.Lib.ValueIdx
import proofs.«417299_j43430709297431_3_alg».proof.Proof.LibERealBatchNorm

noncomputable section

namespace Cert.Loss

open Idealize.ShloMosaic Idealize.ShloMosaic.ValueIdx Cert.ERealBN
open scoped BigOperators

/-- The logits: 16384 rows of 1000 extended reals. -/
abbrev Logits : Type := (⟨2, ![16384, 1000]⟩ : Shape).Idx → EReal
/-- The transition matrix: 1000 by 1000 extended reals. -/
abbrev Trans : Type := (⟨2, ![1000, 1000]⟩ : Shape).Idx → EReal
/-- The targets: one 32-bit word per row. -/
abbrev Targets : Type := (⟨1, ![16384]⟩ : Shape).Idx → BitVec 32

/-- The f32 pattern of minus infinity denotes the bottom of the extended reals. -/
theorem ofBits_neg_inf : Ideal.ofBits .f32 0xFF800000#32 = (⊥ : EReal) := by
  simp [Ideal.ofBits, Ideal.ieee]

/-- The largest entry of row `r`, starting from minus infinity. -/
def rowMax (x : Logits) (r : Fin 16384) : EReal :=
  (Finset.univ : Finset (Fin 1000)).fold max ⊥ (fun j => x (ix2 r j))

/-- The shifted exponential of entry `(r, j)`. -/
def ex (x : Logits) (r : Fin 16384) (j : Fin 1000) : EReal :=
  Ideal.exp (x (ix2 r j) - rowMax x r)

/-- The sum of row `r`'s shifted exponentials. -/
def rowSum (x : Logits) (r : Fin 16384) : EReal := ∑ j : Fin 1000, ex x r j

/-- Row `r`'s shifted exponentials against column `t` of the transition matrix. -/
def mix (x : Logits) (T : Trans) (r : Fin 16384) (t : Fin 1000) : EReal :=
  ∑ k : Fin 1000, ex x r k * T (ix2 k t)

/-- Row `r`'s term at target column `t`, in the kernel's spelling. -/
def term (x : Logits) (T : Trans) (r : Fin 16384) (t : Fin 1000) : EReal :=
  Ideal.div (ex x r t) (mix x T r t) * (Ideal.log (rowSum x r) - (x (ix2 r t) - rowMax x r))

/-- The probability of entry `(r, j)`. -/
def prob (x : Logits) (r : Fin 16384) (j : Fin 1000) : EReal := Ideal.div (ex x r j) (rowSum x r)

/-- Row `r`'s probabilities against column `t` of the transition matrix. -/
def mixProb (x : Logits) (T : Trans) (r : Fin 16384) (t : Fin 1000) : EReal :=
  ∑ k : Fin 1000, prob x r k * T (ix2 k t)

/-- Row `r`'s term at target column `t`, in the reference's spelling. -/
def termRef (x : Logits) (T : Trans) (r : Fin 16384) (t : Fin 1000) : EReal :=
  Ideal.div (prob x r t) (mixProb x T r t) * (-((x (ix2 r t) - rowMax x r) - Ideal.log (rowSum x r)))

/-- The column a target word names: its value, capped at the last column. On a word below 1000 it is the word's value. -/
def colOf (tg : Targets) (r : Fin 16384) : Fin 1000 :=
  ⟨min (tg (ix1 r)).toNat 999, by omega⟩

theorem colOf_val (tg : Targets) (r : Fin 16384) (h : (tg (ix1 r)).toNat < 1000) :
    (colOf tg r).val = (tg (ix1 r)).toNat := by
  unfold colOf; simp only; omega

/-- The loss, in the kernel's spelling of the terms. -/
def total (x : Logits) (T : Trans) (col : Fin 16384 → Fin 1000) : EReal :=
  ∑ r : Fin 16384, term x T r (col r)

/-- The loss, in the reference's spelling of the terms. -/
def totalRef (x : Logits) (T : Trans) (col : Fin 16384 → Fin 1000) : EReal :=
  ∑ r : Fin 16384, termRef x T r (col r)

/-- Row `q` of the `b`-th group of 512 rows. -/
def rowOf (b : Fin 32) (q : Fin 512) : Fin 16384 := ⟨512 * b.val + q.val, by omega⟩

/-- The sum of the terms of the `b`-th group of 512 rows. -/
def blockTotal (x : Logits) (T : Trans) (col : Fin 16384 → Fin 1000) (b : Fin 32) : EReal :=
  ∑ q : Fin 512, term x T (rowOf b q) (col (rowOf b q))

end Cert.Loss

end
-- ==== Proof.Law.lean ====
/- The two spellings of a row's term agree on real-valued arrays, and the loss is the sum of its 32 groups
   of 512 rows.

   On real data the shifted exponentials are positive reals, so their sum `s` is a positive real; the
   probabilities are `e / s`, their mixture with a column of the transition matrix is the exponentials' mixture
   over `s`, and `s` cancels from the quotient. When the exponentials' mixture is zero both quotients are a positive
   real over zero, plus infinity. The cross entropy `-(a - b)` is `b - a` for reals. -/
import proofs.«417299_j43430709297431_3_alg».proof.Proof.Spec

noncomputable section

namespace Cert.Loss

open Idealize.ShloMosaic Idealize.ShloMosaic.ValueIdx Cert.ERealBN
open scoped BigOperators

/-- The running maximum, started at minus infinity, of a nonempty finite family of reals is a real:
    over one element it is `max a ⊥ = a`, and one more element takes the larger of two reals. -/
private theorem fold_max_isReal {ι : Type*} (s : Finset ι) (f : ι → ℝ) (hs : s.Nonempty) :
    IsReal (s.fold max ⊥ (fun j => ((f j : ℝ) : EReal))) := by
  induction hs using Finset.Nonempty.cons_induction with
  | singleton a =>
    rw [Finset.fold_singleton, max_bot_right]
    exact IsReal.coe _
  | cons a s ha hs ih =>
    rw [Finset.fold_cons]
    exact IsReal.max (IsReal.coe _) ih

/-- The importance weight for positive reals `a` and reals `b`: with `σ = Σ a` and `ρ = Σ a · b`, the
    quotient of `a t / σ` by `Σ (a k / σ) · b k = ρ / σ` is the quotient of `a t` by `ρ`. Off `ρ = 0` both are
    the real `a t / ρ`; at `ρ = 0` both are a positive real over zero, plus infinity. -/
private theorem weight_eq {ι : Type*} [Fintype ι] [Nonempty ι] (a b : ι → ℝ) (ha : ∀ j, 0 < a j) (t : ι) :
    Ideal.div (Ideal.div ((a t : ℝ) : EReal) (∑ j, ((a j : ℝ) : EReal)))
        (∑ k, Ideal.div ((a k : ℝ) : EReal) (∑ j, ((a j : ℝ) : EReal)) * ((b k : ℝ) : EReal))
      = Ideal.div ((a t : ℝ) : EReal) (∑ k, ((a k : ℝ) : EReal) * ((b k : ℝ) : EReal)) := by
  have hσ : 0 < ∑ j, a j := Finset.sum_pos (fun j _ => ha j) Finset.univ_nonempty
  rw [coe_sum]
  simp_rw [Ideal.div_coe hσ.ne', ← EReal.coe_mul]
  rw [coe_sum, coe_sum]
  have hsum : ∑ k, a k * (1 / ∑ j, a j) * b k = (∑ k, a k * b k) * (1 / ∑ j, a j) := by
    rw [Finset.sum_mul]
    exact Finset.sum_congr rfl (fun k _ => by ring)
  rw [hsum]
  have hinv : 0 < 1 / ∑ j, a j := by positivity
  by_cases hρ : ∑ k, a k * b k = 0
  · have hnum : (0 : EReal) < ((a t * (1 / ∑ j, a j) : ℝ) : EReal) := by
      exact_mod_cast mul_pos (ha t) hinv
    have hnum' : (0 : EReal) < ((a t : ℝ) : EReal) := by exact_mod_cast ha t
    rw [hρ, zero_mul]
    unfold Ideal.div
    rw [if_pos EReal.coe_zero, if_pos hnum, if_pos EReal.coe_zero, if_pos hnum']
  · have hρ' : (∑ k, a k * b k) * (1 / ∑ j, a j) ≠ 0 := mul_ne_zero hρ hinv.ne'
    rw [Ideal.div_coe hρ', Ideal.div_coe hρ, ← EReal.coe_mul, ← EReal.coe_mul]
    congr 1
    field_simp

/-- On real-valued arrays the reference's spelling of a row's term is the kernel's. -/
theorem termRef_eq_term (x : Logits) (T : Trans) (hx : ∀ i, IsReal (x i)) (hT : ∀ i, IsReal (T i))
    (r : Fin 16384) (t : Fin 1000) : termRef x T r t = term x T r t := by
  choose f hf using hx
  choose g hg using hT
  -- the row's largest entry is a real `M`
  obtain ⟨M, hM⟩ : IsReal (rowMax x r) := by
    unfold rowMax
    simp_rw [hf]
    exact fold_max_isReal Finset.univ (fun j => f (ix2 r j)) Finset.univ_nonempty
  -- so every shifted exponential is the positive real `exp (x r j - M)`
  have hex : ∀ j, ex x r j = ((Real.exp (f (ix2 r j) - M) : ℝ) : EReal) := by
    intro j
    unfold ex
    rw [hM, hf, ← EReal.coe_sub, Ideal.exp_coe]
  -- and their sum is a positive real
  have hσ : 0 < ∑ j : Fin 1000, Real.exp (f (ix2 r j) - M) :=
    Finset.sum_pos (fun j _ => Real.exp_pos _) Finset.univ_nonempty
  have hsum : rowSum x r = ((∑ j : Fin 1000, Real.exp (f (ix2 r j) - M) : ℝ) : EReal) := by
    unfold rowSum
    simp_rw [hex]
    rw [coe_sum]
  -- the weights agree
  have hW : Ideal.div (prob x r t) (mixProb x T r t) = Ideal.div (ex x r t) (mix x T r t) := by
    unfold mixProb mix prob rowSum
    simp_rw [hex, hg]
    exact weight_eq (fun j => Real.exp (f (ix2 r j) - M)) (fun k => g (ix2 k t))
      (fun j => Real.exp_pos _) t
  -- the cross entropies agree
  have hC : -((x (ix2 r t) - rowMax x r) - Ideal.log (rowSum x r))
      = Ideal.log (rowSum x r) - (x (ix2 r t) - rowMax x r) := by
    rw [hsum, Ideal.log_coe, if_neg (not_le.mpr hσ), hM, hf, ← EReal.coe_sub, ← EReal.coe_sub,
      ← EReal.coe_neg, ← EReal.coe_sub]
    congr 1
    ring
  unfold termRef term
  rw [hW, hC]

/-- So the two spellings of the loss agree there, whatever the columns. -/
theorem totalRef_eq_total (x : Logits) (T : Trans) (hx : ∀ i, IsReal (x i)) (hT : ∀ i, IsReal (T i))
    (col : Fin 16384 → Fin 1000) : totalRef x T col = total x T col := by
  unfold totalRef total
  exact Finset.sum_congr rfl (fun r _ => termRef_eq_term x T hx hT r (col r))

/-- Rows correspond to pairs of a group and a place in it: `(b, q)` is row `512 · b + q`, and row `n` is
    place `n % 512` of group `n / 512`. -/
private def rowEquiv : Fin 32 × Fin 512 ≃ Fin 16384 where
  toFun p := rowOf p.1 p.2
  invFun n := (⟨n.val / 512, by omega⟩, ⟨n.val % 512, by omega⟩)
  left_inv p := by
    obtain ⟨b, q⟩ := p
    apply Prod.ext <;> apply Fin.ext <;> simp only [rowOf] <;> omega
  right_inv n := by
    apply Fin.ext
    simp only [rowOf]
    omega

/-- The loss is the sum over the 32 groups of the groups' sums: row `512 · b + q` is row `q` of group `b`. -/
theorem total_eq_blocks (x : Logits) (T : Trans) (col : Fin 16384 → Fin 1000) :
    total x T col = ∑ b : Fin 32, blockTotal x T col b := by
  unfold total blockTotal
  rw [← Fintype.sum_prod_type']
  exact (Fintype.sum_equiv rowEquiv _ _ (fun p => rfl)).symm

end Cert.Loss

end
-- ==== Proof.PreFacts.lean ====
/- What the precondition says of the three argument arrays: every logit and every entry of the transition
   matrix is a real number (its absolute value is below plus infinity), and every target word, read as a signed
   integer, lies in [0, 1000), so its value as a natural number is below 1000. -/
import proofs.«417299_j43430709297431_3_alg».proof.Pre_finite_inputs
import proofs.«417299_j43430709297431_3_alg».proof.Proof.Spec
import Idealize.ShloMosaic.Lib.ReduceAll
import Idealize.ShloMosaic.Lib.StableHlo.Predicate

noncomputable section

namespace Cert.Loss

open Idealize.ShloMosaic Idealize.ShloMosaic.ValueIdx Cert.ERealBN

/-- The scalar shape has exactly one index. -/
private instance : Subsingleton Cert.Pre_finite_inputs.S_.Idx := ⟨fun a b => funext fun d => d.elim0⟩

/-- The f32 pattern of plus infinity denotes the top of the extended reals. -/
private theorem ofBits_pos_inf : Ideal.ofBits .f32 0x7F800000#32 = (⊤ : EReal) := by
  simp [Ideal.ofBits, Ideal.ieee]

/-- An extended real whose absolute value `max a (-a)` lies strictly below plus infinity is a real number:
    at either infinity the absolute value is plus infinity itself. -/
private theorem isReal_of_abs_lt_inf (a : EReal)
    (h : Ideal.cmp .olt (max a (-a)) (Ideal.ofBits .f32 0x7F800000#32) = 1#1) : IsReal a := by
  rw [ofBits_pos_inf] at h
  induction a using EReal.rec with
  | bot => simp [Ideal.cmp] at h
  | coe r => exact ⟨r, rfl⟩
  | top => simp [Ideal.cmp] at h

/-- A 32-bit word that is at least 0 and below 1000 as a signed integer has a value below 1000: a word with a
    non-negative signed reading has its top bit clear, so its signed reading is its value. -/
private theorem toNat_lt_of_signed_range (w : BitVec 32) (h0 : IntOp.cmpi .sge w 0#32 = 1#1)
    (h1 : IntOp.cmpi .slt w 1000#32 = 1#1) : w.toNat < 1000 := by
  have z : (0#32 : BitVec 32).toInt = 0 := by decide
  have k : (1000#32 : BitVec 32).toInt = 1000 := by decide
  have hw := BitVec.toInt_eq_toNat_cond w
  simp only [IntOp.cmpi, StableHlo.Predicate.ofBool_eq_one_iff, BitVec.sle, BitVec.slt, decide_eq_true_eq, z, k] at h0 h1
  split at hw <;> omega

/-- The precondition, all ones, gives real logits, a real transition matrix and targets below 1000. -/
theorem facts_of_pre [Cert.Pre_finite_inputs.Facts] (x : Logits) (tg : Targets) (T : Trans)
    (h : Cert.Pre_finite_inputs.fn (F := Ideal) x tg T = fun _ => 1#1) :
    (∀ i, IsReal (x i)) ∧ (∀ i, IsReal (T i)) ∧ (∀ r : Fin 16384, (tg (ix1 r)).toNat < 1000) := by
  -- the result has one index; read the hypothesis there and split the two conjunctions
  have e := congrFun h ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun r => ?_⟩
  · -- every logit: |x i| < +inf
    exact isReal_of_abs_lt_inf (x i) (Host.reduce_andi_all _ _ _ _ _ e1 i)
  · -- every entry of the transition matrix: |T i| < +inf
    exact isReal_of_abs_lt_inf (T i) (Host.reduce_andi_all _ _ _ _ _ e2 i)
  · -- every target: 0 ≤ tg r and tg r < 1000, signed
    obtain ⟨g0, g1⟩ := IntOp.andi_eq_one.1 (Host.reduce_andi_all _ _ _ _ _ e3 (ix1 r))
    exact toNat_lt_of_signed_range (tg (ix1 r)) g0 g1

end Cert.Loss

end
-- ==== Proof.KernelWindows.lean ====
/- What the kernel's region finds in its three input arrays.

   The first is the logits argument itself. The second is the targets argument after the host's clip to
   [0, 999] and a reshape to a column: on a target word below 1000 the clip changes nothing, so entry `(r, 0)` of the
   column is the target word of row `r`. The third is the transition matrix after a change of float format, which
   over the extended reals is the identity. -/
import proofs.«417299_j43430709297431_3_alg».proof.Proof.Gen.KernelIdeal.Frame
import proofs.«417299_j43430709297431_3_alg».proof.Proof.Spec
import Idealize.ShloMosaic.Lib.StableHlo.Run
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx Cert.Loss

variable (m : (ℓ : Loc nD τ sig) → Buf (Elt Ideal) ℓ)

/-- The logits argument on core `c`. -/
abbrev logits (c : Dev nD) : Logits := m ((c : Thread nD τ).loc main_arg0)
/-- The targets argument on core `c`. -/
abbrev targets (c : Dev nD) : Targets := m ((c : Thread nD τ).loc main_arg1)
/-- The transition-matrix argument on core `c`. -/
abbrev trans (c : Dev nD) : Trans := m ((c : Thread nD τ).loc main_arg2)

/-- A word below 1000 is its own clip to [0, 999]: it is not below zero as a signed integer, and 999 is not below it. -/
theorem clip_of_lt (w : BitVec 32) (h : w.toNat < 1000) : IntOp.minsi 999#32 (IntOp.maxsi 0#32 w) = w := by
  have hw := BitVec.toInt_eq_toNat_cond w
  have z : (0#32 : BitVec 32).toInt = 0 := by decide
  have k : (999#32 : BitVec 32).toInt = 999 := by decide
  have h0 : ¬ (w.slt 0#32 = true) := by
    simp only [BitVec.slt, decide_eq_true_eq, z]; split at hw <;> omega
  have e0 : IntOp.maxsi 0#32 w = w := by unfold IntOp.maxsi; rw [if_neg h0]
  have h1 : ¬ ((999#32 : BitVec 32).slt w = true) := by
    simp only [BitVec.slt, decide_eq_true_eq, k]; split at hw <;> omega
  rw [e0]; unfold IntOp.minsi; rw [if_neg h1]

/-- The first input array is the logits argument. -/
theorem win0_eq (c : Dev nD) : (V m c main_arg0 : Logits) = logits m c := V_main_arg0 m c

/-- The second input array: the targets, clipped to [0, 999] and reshaped to a column. -/
theorem win1_eq (c : Dev nD) : (V m c main_v1 : S16384x1.Idx → BitVec 32)
    = shapeCast S16384x1 (minsi (broadcastInDim S16384 ![] bcast_S_S16384 (constantI S_ 32 999#32))
        (maxsi (broadcastInDim S16384 ![] bcast_S_S16384 (constantI S_ 32 0#32)) (targets m c))) shapeCasts_S16384_S16384x1 := by
  dsimp only [Gen.V, Gen.V0]
  simp only [Gen.hostOps0, Gen.hostOps0_1, Gen.hostOps0_2, List.flatten_cons, List.flatten_nil, List.append_nil,
    List.cons_append, List.nil_append]
  after_results
  simp only [TRef.ofBuf, TRef.toBuf, cast_eq]
  rfl

/-- Its entry `(r, 0)` is row `r`'s target word, when that word is below 1000. -/
theorem win1_apply (c : Dev nD) (r : Fin 16384) (h : (targets m c (ix1 r)).toNat < 1000) :
    (V m c main_v1 : S16384x1.Idx → BitVec 32) (ix2 r 0) = targets m c (ix1 r) := by
  rw [win1_eq]
  refine (shapeCast_apply _ shapeCasts_S16384_S16384x1 (ix2 r 0) (ix1 r) ?_).trans ?_
  · rw [Shape.rowMajor_val_one, Shape.rowMajor_val_two]
    show r.val = r.val * 1 + 0
    omega
  · show IntOp.minsi _ (IntOp.maxsi _ (targets m c (ix1 r))) = _
    exact clip_of_lt _ h

/-- The third input array is the transition-matrix argument: a change of float format is the identity. -/
theorem win2_eq (c : Dev nD) : (V m c main_v2 : Trans) = trans m c := by
  dsimp only [Gen.V, Gen.V0]
  simp only [Gen.hostOps0, Gen.hostOps0_1, Gen.hostOps0_2, List.flatten_cons, List.flatten_nil, List.append_nil,
    List.cons_append, List.nil_append]
  after_results
  rfl

end Cert.KernelIdeal.Windows

end
-- ==== Proof.SpecRow.lean ====
/- The specification's functions of one row, stated on the row alone: a row's term depends on the logits only
   through that row's 1000 entries, so it can be computed from any array that holds the row, in particular from a
   block of 512 rows. -/
import proofs.«417299_j43430709297431_3_alg».proof.Proof.Spec

noncomputable section

namespace Cert.Loss

open Idealize.ShloMosaic Idealize.ShloMosaic.ValueIdx
open scoped BigOperators

/-- The largest entry of a row, starting from minus infinity. -/
def rowMaxV (v : Fin 1000 → EReal) : EReal := (Finset.univ : Finset (Fin 1000)).fold max ⊥ v

/-- The row's shifted exponential at `j`. -/
def exV (v : Fin 1000 → EReal) (j : Fin 1000) : EReal := Ideal.exp (v j - rowMaxV v)

/-- The sum of the row's shifted exponentials. -/
def rowSumV (v : Fin 1000 → EReal) : EReal := ∑ j : Fin 1000, exV v j

/-- The row's shifted exponentials against column `t` of the transition matrix. -/
def mixV (v : Fin 1000 → EReal) (T : Trans) (t : Fin 1000) : EReal := ∑ k : Fin 1000, exV v k * T (ix2 k t)

/-- The row's term at target column `t`. -/
def termV (v : Fin 1000 → EReal) (T : Trans) (t : Fin 1000) : EReal :=
  Ideal.div (exV v t) (mixV v T t) * (Ideal.log (rowSumV v) - (v t - rowMaxV v))

/-- Row `r`'s term is the term of the row `r` cut out of the logits. -/
theorem term_eq_termV (x : Logits) (T : Trans) (r : Fin 16384) (t : Fin 1000) :
    term x T r t = termV (fun j => x (ix2 r j)) T t := rfl

end Cert.Loss

end
-- ==== Proof.KernelBlock.lean ====
/- What the kernel's body stores for one block of 512 rows: every lane of the [1, 1, 128] block holds the sum of
   the block's 512 row terms.

   Row by row the body takes the row's largest entry, the shifted exponentials and their sum; it picks the target
   column out of the exponentials, out of the shifted logits and out of the product of the exponentials with the
   transition matrix by summing each against the mask "column index equals target" (one column survives, the
   others add zero); the quotient of the first by the third, times the logarithm of the sum minus the second, is
   the row's term; the terms are added over the rows and the sum is copied to every lane. -/
import proofs.«417299_j43430709297431_3_alg».proof.Proof.Gen.KernelIdeal.Skeleton
import proofs.«417299_j43430709297431_3_alg».proof.Proof.SpecRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Loss
open scoped BigOperators

/-! ## Layout operations of the body, read at coordinates -/

/-- A vector of 512 entries cast to a column reads, at `(q, u)`, the vector at `q`. -/
private theorem col_apply {α : Type} (v : S512.Idx → α) (q : Fin 512) (u : Fin 1) :
    shapeCast S512x1 v shapeCasts_S512_S512x1 (ix2 q u) = v (ix1 q) :=
  shapeCast_apply v shapeCasts_S512_S512x1 (ix2 q u) (ix1 q) (by
    rw [Shape.rowMajor_val_one, Shape.rowMajor_val_two]
    show q.val = q.val * 1 + u.val
    omega)

/-- A column broadcast along the rows reads, at `(q, j)`, the column at `q`. -/
private theorem bcol_apply {α : Type} (v : S512x1.Idx → α) (q : Fin 512) (j : Fin 1000) :
    broadcastTo S512x1000 v broadcasts_S512x1_S512x1000 (ix2 q j) = v (ix2 q 0) := by
  refine broadcastTo_apply v broadcasts_S512x1_S512x1000 (ix2 q j) (ix2 q 0) fun ax => ?_
  match ax with
  | ⟨0, _⟩ => rfl
  | ⟨1, _⟩ => rfl

/-- The last four operations of the body: a one-entry vector cast to `[1, 1]`, to `[1, 1, 1]`, and copied to the 128
    lanes reads its one entry at every lane. -/
private theorem lanes_apply {α : Type} (v : S1.Idx → α) (i : S1x1x128.Idx) :
    broadcastTo S1x1x128 (shapeCast S1x1x1 (shapeCast S1x1x1 (shapeCast S1x1 v shapeCasts_S1_S1x1) shapeCasts_S1x1_S1x1x1)
      shapeCasts_S1x1x1_S1x1x1) broadcasts_S1x1x1_S1x1x128 i = v (ix1 0) := by
  refine (broadcastTo_apply _ broadcasts_S1x1x1_S1x1x128 i (ix3 0 0 0) fun ax => ?_).trans ?_
  · match ax with
    | ⟨0, _⟩ => rfl
    | ⟨1, _⟩ => rfl
    | ⟨2, _⟩ => rfl
  refine (congrFun (shapeCast_self _ shapeCasts_S1x1x1_S1x1x1) _).trans ?_
  refine (shapeCast_apply _ shapeCasts_S1x1_S1x1x1 (ix3 0 0 0) (ix2 0 0) ?_).trans ?_
  · rw [Shape.rowMajor_val_two, Shape.rowMajor_val_three]; rfl
  refine shapeCast_apply v shapeCasts_S1_S1x1 (ix2 0 0) (ix1 0) ?_
  rw [Shape.rowMajor_val_one, Shape.rowMajor_val_two]; rfl

/-! ## The body's reductions, read at coordinates -/

/-- A sum along the columns, at row `q`: the sum of the row's 1000 entries. -/
private theorem rowSum_apply (src : FVec Ideal S512x1000 .f32) (q : Fin 512) :
    multiReduction (F := Ideal) .add [1] S512 src 0x00000000#32 reduces_S512x1000_S512 (.inl rfl) rfl (ix1 q)
      = ∑ j : Fin 1000, src (ix2 q j) := by
  refine (Ideal.multiReduction_add_single src _ reduces_S512x1000_S512 _ _ (ix1 q)).trans ?_
  refine Finset.sum_congr rfl fun j _ => congrArg src (funext fun a => Fin.ext ?_)
  match a with
  | ⟨0, _⟩ => rfl
  | ⟨1, _⟩ => rfl

/-- A maximum along the columns from minus infinity, at row `q`: the largest of the row's 1000 entries. -/
private theorem rowMax_apply (src : FVec Ideal S512x1000 .f32) (q : Fin 512) :
    multiReduction (F := Ideal) .maximumf [1] S512 src 0xFF800000#32 reduces_S512x1000_S512 (.inl rfl) rfl (ix1 q)
      = rowMaxV (fun j => src (ix2 q j)) := by
  refine (Ideal.multiReduction_maximumf_single src _ reduces_S512x1000_S512 _ _ (ix1 q)).trans ?_
  unfold rowMaxV
  have e : (src ∘ reduces_S512x1000_S512.lift (ix1 q)) = fun j : Fin 1000 => src (ix2 q j) :=
    funext fun j => congrArg src (funext fun a => Fin.ext (by
      match a with
      | ⟨0, _⟩ => rfl
      | ⟨1, _⟩ => rfl))
  rw [e]
  exact congrArg (fun z => (Finset.univ : Finset (Fin 1000)).fold max z fun j => src (ix2 q j)) ofBits_neg_inf

/-- The sum of a column of 512 entries. -/
private theorem colSum_apply (src : FVec Ideal S512x1 .f32) :
    multiReduction (F := Ideal) .add [0] S1 src 0x00000000#32 reduces_S512x1_S1 (.inl rfl) rfl (ix1 0)
      = ∑ q : Fin 512, src (ix2 q 0) := by
  refine (Ideal.multiReduction_add_single src _ reduces_S512x1_S1 _ _ (ix1 0)).trans ?_
  refine Finset.sum_congr rfl fun q _ => congrArg src (funext fun a => Fin.ext ?_)
  match a with
  | ⟨0, _⟩ => rfl
  | ⟨1, _⟩ => rfl

/-! ## The mask "column index equals target" and the sums against it -/

/-- Among the columns below 1000 only the one a word below 1000 names compares equal to the word, so a sum over the columns of
    "the entry where the column equals the word, zero elsewhere" is the entry at that column. -/
private theorem masked_sum (f : Fin 1000 → EReal) (w : BitVec 32) (hw : w.toNat < 1000) :
    ∑ j : Fin 1000, Scalar.select (IntOp.cmpi .eq (BitVec.ofNat 32 j.val) w) (f j) (Ideal.ofBits .f32 0x00000000#32)
      = f ⟨w.toNat, hw⟩ := by
  have key : ∀ j : Fin 1000, BitVec.ofNat 32 j.val = w ↔ j = ⟨w.toNat, hw⟩ := fun j => by
    have hj := j.isLt
    constructor
    · intro h
      have h' := congrArg BitVec.toNat h
      rw [BitVec.toNat_ofNat] at h'
      exact Fin.ext (by show j.val = w.toNat; omega)
    · rintro rfl
      exact BitVec.eq_of_toNat_eq (by rw [BitVec.toNat_ofNat]; show w.toNat % 2 ^ 32 = w.toNat; omega)
  have ob : ∀ b : Bool, BitVec.ofBool b = 1#1 ↔ b = true := fun b => by cases b <;> decide
  have cmp : ∀ a b : BitVec 32, IntOp.cmpi .eq a b = 1#1 ↔ a = b := fun a b => by
    simp only [IntOp.cmpi, ob, beq_iff_eq]
  rw [Finset.sum_eq_single (⟨w.toNat, hw⟩ : Fin 1000)]
  · rw [(cmp _ _).mpr ((key _).mpr rfl)]; exact select_one _ _
  · intro j _ hj
    have hne : ¬ IntOp.cmpi .eq (BitVec.ofNat 32 j.val) w = 1#1 := fun h => hj ((key j).mp ((cmp _ _).mp h))
    rw [eq_zero_of_ne_one hne, select_zero]
    exact Cert.ERealBN.ofBits_zero
  · intro h; exact absurd (Finset.mem_univ _) h

/-- The mask of the body: at `(q, j)`, whether the column index `j` equals row `q`'s target word. -/
private def mask (x1 : Vec Ideal S512x1 .i32) : IVec S512x1000 1 :=
  cmpi .eq (iota .tc S512x1000 32 [1] iota_S512x1000_d1_w32)
    (broadcastTo S512x1000 (shapeCast S512x1 x1 shapeCasts_S512x1_S512x1) broadcasts_S512x1_S512x1000)

private theorem mask_apply (x1 : Vec Ideal S512x1 .i32) (q : Fin 512) (j : Fin 1000) :
    mask x1 (ix2 q j) = IntOp.cmpi .eq (BitVec.ofNat 32 j.val) (x1 (ix2 q 0)) := by
  show IntOp.cmpi .eq (iota .tc S512x1000 32 [1] iota_S512x1000_d1_w32 (ix2 q j))
    (broadcastTo S512x1000 (shapeCast S512x1 x1 shapeCasts_S512x1_S512x1) broadcasts_S512x1_S512x1000 (ix2 q j)) = _
  refine congrArg₂ (IntOp.cmpi .eq) (iota_single_apply .tc S512x1000 32 1 iota_S512x1000_d1_w32 (ix2 q j)) ?_
  refine (bcol_apply _ q j).trans ?_
  exact congrFun (shapeCast_self x1 shapeCasts_S512x1_S512x1) (ix2 q 0)

/-- What the body picks out of a [512, 1000] array: each row summed against the mask, as a column. -/
private def pick (x1 : Vec Ideal S512x1 .i32) (g : FVec Ideal S512x1000 .f32) : FVec Ideal S512x1 .f32 :=
  shapeCast S512x1 (multiReduction (F := Ideal) .add [1] S512
    (select (mask x1) g (broadcast S512x1000 (Scalar.ofBits (F := Ideal) .f32 0x00000000#32))) 0x00000000#32 reduces_S512x1000_S512 (.inl rfl) rfl)
    shapeCasts_S512_S512x1

/-- It is the array's entry at the row's target column. -/
private theorem pick_apply (x1 : Vec Ideal S512x1 .i32) (g : FVec Ideal S512x1000 .f32) (q : Fin 512)
    (h : (x1 (ix2 q 0)).toNat < 1000) : pick x1 g (ix2 q 0) = g (ix2 q ⟨(x1 (ix2 q 0)).toNat, h⟩) := by
  unfold pick
  refine (col_apply _ q 0).trans ?_
  refine (rowSum_apply _ q).trans ?_
  refine Eq.trans (Finset.sum_congr rfl fun j _ => ?_) (masked_sum (fun j => g (ix2 q j)) (x1 (ix2 q 0)) h)
  show Scalar.select (mask x1 (ix2 q j)) (g (ix2 q j)) (Ideal.ofBits .f32 0x00000000#32) = _
  rw [mask_apply]

/-! ## The product with the transition matrix, read at an entry -/

private theorem lhs_ax0 (i : S512x1000.Idx) (c : dot_S512x1000_S1000x1000_S512x1000_1_0_0_1_n_n.contr.Idx) :
    (dot_S512x1000_S1000x1000_S512x1000_1_0_0_1_n_n.lhsIdx i c 0).val = (i 0).val := by
  unfold DotDims.lhsIdx
  rw [dif_neg (show ¬(0 : Fin S512x1000.rank) ∈ dot_S512x1000_S1000x1000_S512x1000_1_0_0_1_n_n.lhsBatch by decide),
    dif_pos (show (0 : Fin S512x1000.rank) ∈ dot_S512x1000_S1000x1000_S512x1000_1_0_0_1_n_n.lhsNonContracting by decide)]
  rfl
private theorem lhs_ax1 (i : S512x1000.Idx) (c : dot_S512x1000_S1000x1000_S512x1000_1_0_0_1_n_n.contr.Idx) :
    (dot_S512x1000_S1000x1000_S512x1000_1_0_0_1_n_n.lhsIdx i c 1).val = (c ⟨0, by decide⟩).val :=
  dot_S512x1000_S1000x1000_S512x1000_1_0_0_1_n_n.lhsIdx_val_of_single rfl i c
private theorem rhs_ax0 (i : S512x1000.Idx) (c : dot_S512x1000_S1000x1000_S512x1000_1_0_0_1_n_n.contr.Idx) :
    (dot_S512x1000_S1000x1000_S512x1000_1_0_0_1_n_n.rhsIdx i c 0).val = (c ⟨0, by decide⟩).val :=
  dot_S512x1000_S1000x1000_S512x1000_1_0_0_1_n_n.rhsIdx_val_of_single rfl i c
private theorem rhs_ax1 (i : S512x1000.Idx) (c : dot_S512x1000_S1000x1000_S512x1000_1_0_0_1_n_n.contr.Idx) :
    (dot_S512x1000_S1000x1000_S512x1000_1_0_0_1_n_n.rhsIdx i c 1).val = (i 1).val := by
  unfold DotDims.rhsIdx
  rw [dif_neg (show ¬(1 : Fin S1000x1000.rank) ∈ dot_S512x1000_S1000x1000_S512x1000_1_0_0_1_n_n.rhsBatch by decide),
    dif_pos (show (1 : Fin S1000x1000.rank) ∈ dot_S512x1000_S1000x1000_S512x1000_1_0_0_1_n_n.rhsNonContracting by decide)]
  rfl

/-- The matrix product into a zero accumulator, at `(q, t)`: the sum over `k` of the left operand at `(q, k)` times the
    right operand at `(k, t)`. -/
private theorem matmul_entry (l : FVec Ideal S512x1000 .bf16) (r : FVec Ideal S1000x1000 .bf16) (q : Fin 512) (t : Fin 1000) :
    matmul (F := Ideal) dot_S512x1000_S1000x1000_S512x1000_1_0_0_1_n_n none l r (constant (F := Ideal) S512x1000 .f32 0x00000000#32) (ix2 q t)
      = ∑ k : Fin 1000, l (ix2 q k) * r (ix2 k t) := by
  simp only [matmul]
  rw [Ideal.matmul_constant_zero_apply,
    ← Equiv.sum_comp (contrEquiv1 dot_S512x1000_S1000x1000_S512x1000_1_0_0_1_n_n 1000 rfl rfl).symm]
  refine Finset.sum_congr rfl fun k _ => ?_
  have hk := contrEquiv1_symm_val dot_S512x1000_S1000x1000_S512x1000_1_0_0_1_n_n 1000 rfl rfl k
  have el : dot_S512x1000_S1000x1000_S512x1000_1_0_0_1_n_n.lhsIdx (ix2 q t)
      ((contrEquiv1 dot_S512x1000_S1000x1000_S512x1000_1_0_0_1_n_n 1000 rfl rfl).symm k) = ix2 q k :=
    funext fun a => Fin.ext (by
      match a with
      | ⟨0, _⟩ => exact lhs_ax0 _ _
      | ⟨1, _⟩ => exact (lhs_ax1 _ _).trans hk)
  have er : dot_S512x1000_S1000x1000_S512x1000_1_0_0_1_n_n.rhsIdx (ix2 q t)
      ((contrEquiv1 dot_S512x1000_S1000x1000_S512x1000_1_0_0_1_n_n 1000 rfl rfl).symm k) = ix2 k t :=
    funext fun a => Fin.ext (by
      match a with
      | ⟨0, _⟩ => exact (rhs_ax0 _ _).trans hk
      | ⟨1, _⟩ => exact rhs_ax1 _ _)
  rw [el, er]

/-! ## The shifted logits and their exponentials -/

/-- The logits minus their row's largest entry, as the body computes them. -/
private def shifted (x0 : Vec Ideal S512x1000 .f32) : FVec Ideal S512x1000 .f32 :=
  subf x0 (broadcastTo S512x1000 (shapeCast S512x1
    (multiReduction (F := Ideal) .maximumf [1] S512 x0 0xFF800000#32 reduces_S512x1000_S512 (.inl rfl) rfl) shapeCasts_S512_S512x1)
    broadcasts_S512x1_S512x1000)

private theorem shifted_apply (x0 : Vec Ideal S512x1000 .f32) (q : Fin 512) (j : Fin 1000) :
    shifted x0 (ix2 q j) = x0 (ix2 q j) - rowMaxV (fun j => x0 (ix2 q j)) := by
  unfold shifted
  refine (subf_apply _ _ _).trans ?_
  refine congrArg (x0 (ix2 q j) - ·) ?_
  refine (bcol_apply _ q j).trans ?_
  refine (col_apply _ q 0).trans ?_
  exact rowMax_apply x0 q

/-- Their exponentials are the row's shifted exponentials. -/
private theorem exp_shifted_apply (x0 : Vec Ideal S512x1000 .f32) (q : Fin 512) (j : Fin 1000) :
    exp (shifted x0) (ix2 q j) = exV (fun j => x0 (ix2 q j)) j := by
  show Ideal.exp (shifted x0 (ix2 q j)) = _
  rw [shifted_apply]
  rfl

/-- The body's stored value, at every lane: the sum over the block's rows of the rows' terms, each at the column its
    target word names (a word below 1000). -/
theorem pay_eq (x0 : Vec Ideal S512x1000 .f32) (x1 : Vec Ideal S512x1 .i32) (x2 : Vec Ideal S1000x1000 .bf16)
    (h1 : ∀ q : Fin 512, (x1 (ix2 q 0)).toNat < 1000) (i : S1x1x128.Idx) :
    k0_pay1 (F := Ideal) x0 x1 x2 i
      = ∑ q : Fin 512, termV (fun j => x0 (ix2 q j)) x2 ⟨(x1 (ix2 q 0)).toNat, h1 q⟩ := by
  unfold k0_pay1
  -- the lanes all hold the one sum over the rows
  refine (lanes_apply _ i).trans ?_
  refine (colSum_apply _).trans ?_
  refine Finset.sum_congr rfl fun q _ => ?_
  -- row q: the quotient of the picked exponential by the picked product, times the logarithm minus the picked logit
  unfold termV
  refine (mulf_apply _ _ _).trans ?_
  refine congrArg₂ (· * ·) ?_ ?_
  · refine (divf_apply _ _ _).trans ?_
    refine congrArg₂ Ideal.div ?_ ?_
    · refine (pick_apply x1 (exp (shifted x0)) q (h1 q)).trans ?_
      exact exp_shifted_apply x0 q _
    · refine (pick_apply x1 _ q (h1 q)).trans ?_
      refine (matmul_entry _ _ q _).trans ?_
      unfold mixV
      refine Finset.sum_congr rfl fun k _ => ?_
      refine congrArg₂ (· * ·) ?_ ?_
      · exact exp_shifted_apply x0 q k
      · exact congrFun (shapeCast_self x2 shapeCasts_S1000x1000_S1000x1000) _
  · refine (subf_apply _ _ _).trans ?_
    refine congrArg₂ (· - ·) ?_ ?_
    · refine congrArg Ideal.log ?_
      refine (col_apply _ q 0).trans ?_
      refine (rowSum_apply _ q).trans ?_
      unfold rowSumV
      exact Finset.sum_congr rfl fun j _ => exp_shifted_apply x0 q j
    · refine (pick_apply x1 (shifted x0) q (h1 q)).trans ?_
      exact shifted_apply x0 q _

end Cert.KernelIdeal.Block

end
-- ==== Proof.KernelArray.lean ====
/- The kernel's result: the region writes, for each of the 32 blocks of 512 rows, the block's sum of row terms into
   every lane of row `b` of a [32, 1, 128] array; the host then takes lane 0 of each row and adds the 32 numbers. -/
import proofs.«417299_j43430709297431_3_alg».proof.Proof.Gen.KernelIdeal.Frame
import proofs.«417299_j43430709297431_3_alg».proof.Proof.KernelWindows
import proofs.«417299_j43430709297431_3_alg».proof.Proof.KernelBlock
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Result

open Cert.KernelIdeal Cert.KernelIdeal.Gen Cert.KernelIdeal.Windows Idealize.ShloMosaic Idealize.ShloMosaic.TcCoe Idealize.SL.Sem
open Idealize.ShloMosaic.StableHlo Idealize.ShloMosaic.ValueIdx Cert.Loss
open scoped BigOperators

variable (m : (ℓ : Loc nD τ sig) → Buf (Elt Ideal) ℓ)

/-! ## The array the region writes -/

/-- The sum of the terms of the group of 512 rows numbered `n` (zero past the last group). -/
private def groupAt (x : Logits) (T : Trans) (col : Fin 16384 → Fin 1000) (n : ℕ) : EReal :=
  if h : n < 32 then blockTotal x T col ⟨n, h⟩ else 0

/-- At the number of a group it is that group's sum. -/
private theorem groupAt_val (x : Logits) (T : Trans) (col : Fin 16384 → Fin 1000) (n : ℕ) (b : Fin 32) (h : n = b.val) :
    groupAt x T col n = blockTotal x T col b := by
  subst h
  unfold groupAt
  rw [dif_pos b.isLt]

/-- The [32, 1, 128] array the region leaves: every lane of row `b` holds the sum of the terms of group `b`. -/
private def lanes (x : Logits) (T : Trans) (col : Fin 16384 → Fin 1000) : S32x1x128.Idx → EReal :=
  fun i => groupAt x T col (i 0).val

/-! ## Where the blocks sit -/

private theorem origin2 : (![0, 0] : Fin 2 → Nat) = fun _ => 0 := funext fun a => by fin_cases a <;> rfl
private theorem origin3 : (![0, 0, 0] : Fin 3 → Nat) = fun _ => 0 := funext fun a => by fin_cases a <;> rfl

/-- At grid point `t` the logits' block and the targets' block are block `t` along the rows, the transition matrix is
    its one block, and the output's block is row `t`. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Entry `(q, j)` of the logits' block at point `t` is entry `(512 t + q, j)` of the logits. -/
private theorem logits_block (c : Dev nD) (t : Fin cfg0.N) (q : Fin 512) (j : Fin 1000) (r : Fin 16384)
    (hrow : r.val = 512 * t.val + q.val) :
    (iblk m c 0 t : Vec Ideal S512x1000 .f32) (ix2 q j) = logits m c (ix2 r j) := by
  obtain ⟨e0, e1, -⟩ := block_index t
  refine Eq.trans ?_ (congrFun (win0_eq m c) (ix2 r j))
  unfold iblk
  rw [View.read_apply]
  show V m c main_arg0 _ = V m c main_arg0 _
  congr 1
  funext a
  apply Fin.ext
  match a with
  | ⟨0, _⟩ => show win0_0.index t (0 : Fin 2) * 512 + 1 * q.val = r.val; omega
  | ⟨1, _⟩ => show win0_0.index t (1 : Fin 2) * 1000 + 1 * j.val = j.val; omega

/-- Entry `(q, 0)` of the targets' block at point `t` is the target word of row `512 t + q`, a word below 1000. -/
private theorem targets_block (c : Dev nD) (hr : ∀ r : Fin 16384, (targets m c (ix1 r)).toNat < 1000)
    (t : Fin cfg0.N) (q : Fin 512) (r : Fin 16384) (hrow : r.val = 512 * t.val + q.val) :
    (iblk m c 1 t : Vec Ideal S512x1 .i32) (ix2 q 0) = targets m c (ix1 r) := by
  obtain ⟨-, -, e0, e1, -⟩ := block_index t
  refine Eq.trans ?_ (win1_apply m c r (hr r))
  unfold iblk
  rw [View.read_apply]
  show V m c main_v1 _ = V m c main_v1 _
  congr 1
  funext a
  apply Fin.ext
  match a with
  | ⟨0, _⟩ => show win0_1.index t (0 : Fin 2) * 512 + 1 * q.val = r.val; omega
  | ⟨1, _⟩ => show win0_1.index t (1 : Fin 2) * 1 + 1 * 0 = 0; omega

/-- The transition matrix's block at any point is the whole matrix. -/
private theorem trans_block (c : Dev nD) (t : Fin cfg0.N) :
    (iblk m c 2 t : Vec Ideal S1000x1000 .bf16) = trans m c := by
  obtain ⟨-, -, -, -, e0, e1, -⟩ := block_index t
  refine Eq.trans ?_ (win2_eq m c)
  funext y
  unfold iblk
  rw [View.read_apply]
  show V m c main_v2 _ = V m c main_v2 _
  congr 1
  funext a
  apply Fin.ext
  match a with
  | ⟨0, _⟩ => show win0_2.index t (0 : Fin 2) * 1000 + 1 * (y 0).val = (y 0).val; omega
  | ⟨1, _⟩ => show win0_2.index t (1 : Fin 2) * 1000 + 1 * (y 1).val = (y 1).val; omega

/-! ## What a point writes -/

/-- The body's stored value over three blocks that hold group `b`'s rows of the logits, group `b`'s target words and
    the transition matrix is, at every lane, the sum of group `b`'s terms: the row cut out of the block is the row
    of the logits, and a target word below 1000 names the column of its own value. -/
private theorem stored_eq (x : Logits) (tg : Targets) (T : Trans) (htg : ∀ r : Fin 16384, (tg (ix1 r)).toNat < 1000)
    (b : Fin 32) (x0 : Vec Ideal S512x1000 .f32) (x1 : Vec Ideal S512x1 .i32) (x2 : Vec Ideal S1000x1000 .bf16)
    (h0 : ∀ (q : Fin 512) (j : Fin 1000), x0 (ix2 q j) = x (ix2 (rowOf b q) j))
    (h1 : ∀ q : Fin 512, x1 (ix2 q 0) = tg (ix1 (rowOf b q)))
    (h2 : x2 = T) (i : S1x1x128.Idx) :
    k0_pay1 (F := Ideal) x0 x1 x2 i = blockTotal x T (colOf tg) b := by
  have hlt : ∀ q : Fin 512, (x1 (ix2 q 0)).toNat < 1000 := fun q => by rw [h1 q]; exact htg _
  rw [Block.pay_eq x0 x1 x2 hlt i]
  unfold blockTotal
  refine Finset.sum_congr rfl fun q _ => ?_
  rw [term_eq_termV]
  have e0 : (fun j => x0 (ix2 q j)) = fun j => x (ix2 (rowOf b q) j) := funext (h0 q)
  have ec : (⟨(x1 (ix2 q 0)).toNat, hlt q⟩ : Fin 1000) = colOf tg (rowOf b q) :=
    Fin.ext (by
      show (x1 (ix2 q 0)).toNat = (colOf tg (rowOf b q)).val
      rw [colOf_val tg (rowOf b q) (htg _), h1 q])
  rw [e0, ec, h2]

/-- What point `t` writes back is block `t` of the array `lanes`. -/
private theorem flushed_eq (c : Dev nD) (hr : ∀ r : Fin 16384, (targets m c (ix1 r)).toNat < 1000) (t : Fin cfg0.N) :
    (dats m 0 c).flushed 3 t
      = ((cfg0.win 3).blk t).view.read (Elt Ideal) (lanes (logits m c) (trans m c) (colOf (targets m c))) := by
  have hN : cfg0.N = 32 := N_0
  have ht : t.val < 32 := by have := t.isLt; omega
  obtain ⟨-, -, -, -, -, -, e0, -, -⟩ := block_index t
  show (cfg0.win 3).cut (grid0.coords t) ((dats m 0 c).after 3 t) = _
  rw [after0_3]
  unfold out0_3
  rw [View.canon_unit_zero origin3]
  simp only [View.ld_unit_zero (S := S512x1000) origin2, View.ld_unit_zero (S := S512x1) origin2,
    View.ld_unit_zero (S := S1000x1000) origin2]
  funext y
  refine (stored_eq (logits m c) (targets m c) (trans m c) hr ⟨t.val, ht⟩ (iblk m c 0 t) (iblk m c 1 t) (iblk m c 2 t)
    (fun q j => logits_block m c t q j _ rfl) (fun q => targets_block m c hr t q _ rfl) (trans_block m c t) y).trans ?_
  refine (groupAt_val _ _ _ _ ⟨t.val, ht⟩ ?_).symm
  show win0_3.index t (0 : Fin 3) * 1 + 1 * (y 0).val = t.val
  have hy : (y 0).val < 1 := (y 0).isLt
  omega

/-! ## The array after the run -/

/-- An index of the [32, 1, 128] array lies in point `t`'s block when each coordinate lies in the block's range on its axis. -/
private theorem mem_block (t : Fin cfg0.N) (i : S32x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v3).slice (win0_3.rect t)).set ↔ _
  rw [View.set_slice_whole, Rect.mem_set_unit]
  exact Iff.rfl

/-- Every index of the array lies in the block of the point numbered by its row. -/
private theorem covered (i : S32x1x128.Idx) :
    ∃ t : Fin cfg0.N, (cfg0.win 3).flush t = true ∧ i ∈ ((cfg0.win 3).blk t).view.set := by
  have hN : cfg0.N = 32 := N_0
  have hN' : grid0.N = 32 := N_0
  have h0 : (i 0).val < 32 := (i 0).isLt
  have h1 : (i 1).val < 1 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, e0, e1, e2⟩ := block_index t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 128 ≤ (i 2).val ∧ (i 2).val < win0_3.index t (2 : Fin 3) * 128 + 128
    omega

/-- So after the run the region's array is `lanes`. -/
private theorem array_eq (c : Dev nD) (hr : ∀ r : Fin 16384, (targets m c (ix1 r)).toNat < 1000) :
    (dats m 0 c).arrAt 3 cfg0.N = lanes (logits m c) (trans m c) (colOf (targets m c)) :=
  (dats m 0 c).arrAt_eq_of_cover 3 (lanes (logits m c) (trans m c) (colOf (targets m c)))
    (fun t _ => flushed_eq m c hr t) covered

/-! ## The host's closing operations -/

/-- A rank-one index is its coordinate. -/
private def laneEquiv : S32.Idx ≃ Fin 32 where
  toFun i := i 0
  invFun b := ix1 b
  left_inv i := (eq_ix1 i).symm
  right_inv _ := rfl

/-- Lane 0 of each of the 32 rows, as a vector of 32 numbers, added up from zero: the sum of the rows' lane 0. -/
private theorem closing_sum (A : S32x1x128.Idx → EReal) :
    Host.reduceAdd (F := Ideal)
        (shapeCast S32 (extractStridedSlice S32x1x1 ![0, 0, 0] A slices_S32x1x128_S32x1x1_0_0_0) shapeCasts_S32x1x1_S32)
        (constant (F := Ideal) S_ .f32 0x00000000#32) reducesTo_S32_S_d0 h_S_
      = fun _ => ∑ b : Fin 32, A (ix3 b 0 0) := by
  funext j
  show Ideal.hostReduceAdd reducesTo_S32_S_d0 _ (Ideal.ofBits .f32 0x00000000#32) j = _
  rw [Ideal.hostReduceAdd_total reducesTo_S32_S_d0 (fun b => b.elim0), Cert.ERealBN.ofBits_zero, zero_add]
  refine Fintype.sum_equiv laneEquiv _ _ fun i => ?_
  obtain ⟨b, rfl⟩ : ∃ b : Fin 32, i = ix1 b := ⟨i 0, eq_ix1 i⟩
  show shapeCast S32 _ shapeCasts_S32x1x1_S32 (ix1 b) = A (ix3 b 0 0)
  refine (shapeCast_apply _ shapeCasts_S32x1x1_S32 (ix1 b) (ix3 b 0 0) ?_).trans ?_
  · rw [Shape.rowMajor_val_one, Shape.rowMajor_val_three]
    show (b.val * 1 + 0) * 1 + 0 = b.val
    omega
  · refine extractStridedSlice_apply _ _ _ (ix3 b 0 0) (ix3 b 0 0) fun a => ?_
    match a with
    | ⟨0, _⟩ => show b.val = 0 + b.val; omega
    | ⟨1, _⟩ => show 0 = 0 + 0; rfl
    | ⟨2, _⟩ => show 0 = 0 + 0; rfl

/-- The result buffer after the host's closing operations: the sum over the 32 blocks of the blocks' sums of row
    terms, each row at the column its target word names, when every target word is below 1000. -/
theorem kernel_result (c : Dev nD) (hr : ∀ r : Fin 16384, (targets m c (ix1 r)).toNat < 1000) :
    (Pipeline.afterTail₀ cfgs (dats m) 0 (V0 m) [hostOps1] c main_v6 : S_.Idx → EReal)
      = fun _ => ∑ b : Fin 32, blockTotal (logits m c) (trans m c) (colOf (targets m c)) b := by
  have hA : (Pipeline.withArrays (cfgs 0).spec c (V0 m c) (fun w => (dats m 0 c).arrAt w (cfgs 0).N)
      (Proc.devRef .tc main_v3) : S32x1x128.Idx → EReal) = lanes (logits m c) (trans m c) (colOf (targets m c)) :=
    (Pipeline.withArrays_arr spec0 launch0.win.arr_inj c _ _ 3).trans (array_eq m c hr)
  unfold Pipeline.afterTail₀
  show StableHlo.after hostOps1 _ (Proc.devRef .tc main_v6) = _
  after_results
  rw [hA]
  refine (closing_sum _).trans ?_
  funext _
  refine Finset.sum_congr rfl fun b _ => ?_
  exact groupAt_val _ _ _ _ b rfl

end Cert.KernelIdeal.Result

end
-- ==== Proof.RefValue.lean ====
/- What the reference computes: the loss in the reference's spelling.

   Row by row it forms the probabilities `e / s` and the log-probabilities `(x - M) - log s`, where `M` is the row's
   largest entry, `e` the shifted exponentials and `s` their sum; it reads the target column of the
   probabilities, of the probabilities multiplied by the transition matrix, and of the log-probabilities by three
   gathers at the pairs (row, target); and it adds, over the rows, the quotient of the first two times minus the
   third. A target word below 1000 is not negative, so the wrap-around of negative indices leaves it alone and the
   gather's clamp to the last column changes nothing: the column read is the word's value. -/
import proofs.«417299_j43430709297431_3_alg».proof.Proof.RefRead
import proofs.«417299_j43430709297431_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Idealize.ShloMosaic Idealize.ShloMosaic.ValueIdx Cert.Loss
open scoped BigOperators

/-- The point gather at the pair (row, column): when the two start-index components of row `r` read, as signed
    integers, the row itself and a column `c` inside the array, the gathered element is the operand at `(r, c)`. -/
private theorem gather_point {α : Type} (x : S16384x1000.Idx → α) (idx : IVec S16384x2 32)
    (r : Fin 16384) (c : Fin 1000)
    (h0 : (idx (ix2 r (0 : Fin 2))).toInt = (r.val : Int)) (h1 : (idx (ix2 r (1 : Fin 2))).toInt = (c.val : Int)) :
    Host.gather gather_S16384x1000_S16384x2_S16384_n_01_n_n_01_1_11 x idx (ix1 r) = x (ix2 r c) := by
  unfold Host.gather
  congr 1
  funext a
  refine Fin.ext ?_
  match a with
  | ⟨0, _⟩ =>
    show gather_S16384x1000_S16384x2_S16384_n_01_n_n_01_1_11.start (ix1 r) idx 0
      + gather_S16384x1000_S16384x2_S16384_n_01_n_n_01_1_11.batchCoord (ix1 r) 0
      + gather_S16384x1000_S16384x2_S16384_n_01_n_n_01_1_11.offCoord (ix1 r) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S16384x1000_S16384x2_S16384_n_01_n_n_01_1_11.startIndexMap by decide)]
    have hsi : gather_S16384x1000_S16384x2_S16384_n_01_n_n_01_1_11.siIdx (ix1 r)
        ⟨List.idxOf (0 : Fin 2) gather_S16384x1000_S16384x2_S16384_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi, h0]
    show min (r.val : Int).toNat (16384 - 1) = r.val
    have := r.isLt
    omega
  | ⟨1, _⟩ =>
    show gather_S16384x1000_S16384x2_S16384_n_01_n_n_01_1_11.start (ix1 r) idx 1
      + gather_S16384x1000_S16384x2_S16384_n_01_n_n_01_1_11.batchCoord (ix1 r) 1
      + gather_S16384x1000_S16384x2_S16384_n_01_n_n_01_1_11.offCoord (ix1 r) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S16384x1000_S16384x2_S16384_n_01_n_n_01_1_11.startIndexMap by decide)]
    have hsi : gather_S16384x1000_S16384x2_S16384_n_01_n_n_01_1_11.siIdx (ix1 r)
        ⟨List.idxOf (1 : Fin 2) gather_S16384x1000_S16384x2_S16384_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi, h1]
    show min (c.val : Int).toNat (1000 - 1) = c.val
    have := c.isLt
    omega

/-- Two columns joined side by side: the joined array's first column is the first operand. -/
private theorem concat_col0 {α : Type} (h : Shape.Concatenates [S16384x1, S16384x1] S16384x2 1)
    (a b : S16384x1.Idx → α) (r : Fin 16384) :
    concatenate S16384x2 1 [⟨S16384x1, a⟩, ⟨S16384x1, b⟩] h (ix2 r (0 : Fin 2)) = a (ix2 r (0 : Fin 1)) := by
  show a _ = a _
  congr 1
  funext d
  refine Fin.ext ?_
  match d with
  | ⟨0, _⟩ => rfl
  | ⟨1, _⟩ => rfl

/-- … and its second column is the second operand. -/
private theorem concat_col1 {α : Type} (h : Shape.Concatenates [S16384x1, S16384x1] S16384x2 1)
    (a b : S16384x1.Idx → α) (r : Fin 16384) :
    concatenate S16384x2 1 [⟨S16384x1, a⟩, ⟨S16384x1, b⟩] h (ix2 r (1 : Fin 2)) = b (ix2 r (0 : Fin 1)) := by
  show b _ = b _
  congr 1
  funext d
  refine Fin.ext ?_
  match d with
  | ⟨0, _⟩ => rfl
  | ⟨1, _⟩ => rfl

/-- The reduced index of row `r` with column `k` put back is `(r, k)`. -/
private theorem lift_row (h : S16384x1000.Reduces [1] S16384) (r : Fin 16384) (k : Fin (S16384x1000.size 1)) :
    h.lift (ix1 r) k = ix2 r (⟨k.val, k.isLt⟩ : Fin 1000) := by
  funext c; refine Fin.ext ?_
  match c with
  | ⟨0, _⟩ => rfl
  | ⟨1, _⟩ => rfl

/-- From minus infinity, the maximum-reduce of the logits along the columns is, at row `r`, the row's largest entry. -/
private theorem max_reduce_row (x : Logits) (init : S_.Idx → Ideal .f32)
    (h' : S16384x1000.ReducesTo [1] S16384) (hu : 0 < S_.numel) (hinit : ∀ i, init i = (⊥ : EReal)) (r : Fin 16384) :
    Host.reduce (FloatOps.maximumf (F := Ideal) (φ := .f32)) x init h' hu (ix1 r) = rowMax x r := by
  have h : S16384x1000.Reduces [1] S16384 := by decide
  rw [Host.reduce_eq_fold_single FloatOps.maximumf x init h' h hu, hinit]
  unfold rowMax
  have hf : (x ∘ h.lift (ix1 r)) = fun k : Fin 1000 => x (ix2 r k) := funext fun k => congrArg x (lift_row h r k)
  exact congrArg (fun f => Finset.fold max (⊥ : EReal) f (Finset.univ : Finset (Fin 1000))) hf

/-- The row maximum, as the reference forms it: the larger of minus infinity and the maximum-reduce. -/
private theorem v2_eq (x0 : Logits) (r : Fin 16384) :
    Read.val_main_v2 (F := Ideal) x0 (ix1 r) = rowMax x0 r := by
  rw [Read.val_main_v2_apply, Read.val_main_v1_apply, Read.val_main_cst_0_apply]
  unfold Read.val_main_v0
  rw [max_reduce_row x0 _ _ _ (fun i => by rw [Read.val_main_cst_apply]; exact ofBits_neg_inf) r]
  show max (Ideal.ofBits .f32 0xFF800000#32) (rowMax x0 r) = rowMax x0 r
  rw [ofBits_neg_inf]
  exact max_bot_left _

/-- The same inside the log-softmax. -/
private theorem c2_eq (x0 : Logits) (r : Fin 16384) :
    Read.val_main_call0_v2 (F := Ideal) x0 (ix1 r) = rowMax x0 r := by
  rw [Read.val_main_call0_v2_apply, Read.val_main_call0_v1_apply, Read.val_main_call0_cst_0_apply]
  unfold Read.val_main_call0_v0
  rw [max_reduce_row x0 _ _ _ (fun i => by rw [Read.val_main_call0_cst_apply]; exact ofBits_neg_inf) r]
  show max (Ideal.ofBits .f32 0xFF800000#32) (rowMax x0 r) = rowMax x0 r
  rw [ofBits_neg_inf]
  exact max_bot_left _

/-- The shifted logit. -/
private theorem v5_eq (x0 : Logits) (r : Fin 16384) (j : Fin 1000) :
    Read.val_main_v5 (F := Ideal) x0 (ix2 r j) = x0 (ix2 r j) - rowMax x0 r := by
  rw [Read.val_main_v5_apply, Read.val_main_v4_apply, Read.val_main_v3_apply]
  have e : Read.idx_main_v3 (Read.idx_main_v4 (ix2 r j)) = ix1 r :=
    funext fun a => Fin.ext (by match a with | ⟨0, _⟩ => rfl)
  rw [e, v2_eq]
  rfl

private theorem c5_eq (x0 : Logits) (r : Fin 16384) (j : Fin 1000) :
    Read.val_main_call0_v5 (F := Ideal) x0 (ix2 r j) = x0 (ix2 r j) - rowMax x0 r := by
  rw [Read.val_main_call0_v5_apply, Read.val_main_call0_v4_apply, Read.val_main_call0_v3_apply]
  have e : Read.idx_main_call0_v3 (Read.idx_main_call0_v4 (ix2 r j)) = ix1 r :=
    funext fun a => Fin.ext (by match a with | ⟨0, _⟩ => rfl)
  rw [e, c2_eq]
  rfl

/-- The shifted exponential. -/
private theorem v6_eq (x0 : Logits) (r : Fin 16384) (j : Fin 1000) :
    Read.val_main_v6 (F := Ideal) x0 (ix2 r j) = ex x0 r j := by
  rw [Read.val_main_v6_apply, v5_eq]
  rfl

private theorem c6_eq (x0 : Logits) (r : Fin 16384) (j : Fin 1000) :
    Read.val_main_call0_v6 (F := Ideal) x0 (ix2 r j) = ex x0 r j := by
  rw [Read.val_main_call0_v6_apply, c5_eq]
  rfl

/-- The row's sum of shifted exponentials, from the initial value zero. -/
private theorem v7_eq (x0 : Logits) (r : Fin 16384) :
    Read.val_main_v7 (F := Ideal) x0 (ix1 r) = rowSum x0 r := by
  rw [Read.val_main_v7_apply, Read.val_main_cst_1_apply]
  show Ideal.ofBits .f32 0x00000000#32 + _ = _
  rw [Cert.ERealBN.ofBits_zero, zero_add]
  unfold rowSum
  refine Finset.sum_congr rfl fun k _ => ?_
  have e : Read.idx_main_v7 (ix1 r) k = ix2 r k :=
    funext fun a => Fin.ext (by match a with | ⟨0, _⟩ => rfl | ⟨1, _⟩ => rfl)
  rw [e, v6_eq]

private theorem c7_eq (x0 : Logits) (r : Fin 16384) :
    Read.val_main_call0_v7 (F := Ideal) x0 (ix1 r) = rowSum x0 r := by
  rw [Read.val_main_call0_v7_apply, Read.val_main_call0_cst_1_apply]
  show Ideal.ofBits .f32 0x00000000#32 + _ = _
  rw [Cert.ERealBN.ofBits_zero, zero_add]
  unfold rowSum
  refine Finset.sum_congr rfl fun k _ => ?_
  have e : Read.idx_main_call0_v7 (ix1 r) k = ix2 r k :=
    funext fun a => Fin.ext (by match a with | ⟨0, _⟩ => rfl | ⟨1, _⟩ => rfl)
  rw [e, c6_eq]

/-- The probability: the shifted exponential over the row's sum. -/
private theorem v10_eq (x0 : Logits) (r : Fin 16384) (j : Fin 1000) :
    Read.val_main_v10 (F := Ideal) x0 (ix2 r j) = prob x0 r j := by
  rw [Read.val_main_v10_apply, v6_eq, Read.val_main_v9_apply, Read.val_main_v8_apply]
  have e : Read.idx_main_v8 (Read.idx_main_v9 (ix2 r j)) = ix1 r :=
    funext fun a => Fin.ext (by match a with | ⟨0, _⟩ => rfl)
  rw [e, v7_eq]
  rfl

/-- The log-probability: the shifted logit less the logarithm of the row's sum. -/
private theorem v11_eq (x0 : Logits) (r : Fin 16384) (j : Fin 1000) :
    Read.val_main_v11 (F := Ideal) x0 (ix2 r j) = (x0 (ix2 r j) - rowMax x0 r) - Ideal.log (rowSum x0 r) := by
  rw [Read.val_main_v11_apply, c5_eq, Read.val_main_call0_v10_apply, Read.val_main_call0_v9_apply,
    Read.val_main_call0_v8_apply]
  have e : Read.idx_main_call0_v8 (Read.idx_main_call0_v10 (ix2 r j)) = ix1 r :=
    funext fun a => Fin.ext (by match a with | ⟨0, _⟩ => rfl)
  rw [e, c7_eq]
  rfl

/-- The probabilities against a column of the transition matrix. -/
private theorem v27_eq (x0 : Logits) (x2 : Trans) (r : Fin 16384) (j : Fin 1000) :
    Read.val_main_v27 (F := Ideal) x0 x2 (ix2 r j) = mixProb x0 x2 r j := by
  rw [Read.val_main_v27_apply]
  unfold mixProb
  refine Finset.sum_congr rfl fun k _ => ?_
  have el : Read.lidx_main_v27 (ix2 r j) k = ix2 r k :=
    funext fun a => Fin.ext (by match a with | ⟨0, _⟩ => rfl | ⟨1, _⟩ => rfl)
  have er : Read.ridx_main_v27 (ix2 r j) k = ix2 k j :=
    funext fun a => Fin.ext (by match a with | ⟨0, _⟩ => rfl | ⟨1, _⟩ => rfl)
  rw [el, er, v10_eq]

/-- A word that is not negative as a signed integer is left alone by the wrap-around of negative indices. -/
private theorem wrap_nonneg (w alt : BitVec 32) (hw : w.toNat < 2 ^ 31) :
    Scalar.select (IntOp.cmpi .slt w 0#32) alt w = w := by
  have hc : IntOp.cmpi .slt w 0#32 = 0#1 := by
    refine eq_zero_of_ne_one fun h => ?_
    have hlt := (StableHlo.Predicate.slt_bool_iff_toNat hw (by decide : (0#32).toNat < 2 ^ 31)).mp h
    exact Nat.not_lt_zero _ hlt
  rw [hc]
  exact select_zero _ _

/-- A row number below 16384, as a 32-bit word, is below 2³¹. -/
private theorem row_small (r : Fin 16384) : (BitVec.ofNat 32 r.val).toNat < 2 ^ 31 := by
  rw [BitVec.toNat_ofNat]
  have := r.isLt
  omega

/-- The first index column: the row numbers, which are not negative, so the wrap-around leaves them alone. -/
private theorem v17_eq (r : Fin 16384) : Read.val_main_v17 (F := Ideal) (ix1 r) = BitVec.ofNat 32 r.val := by
  rw [Read.val_main_v17_apply, Read.val_main_v14_apply, Read.val_main_v12_apply, Read.val_main_v13_apply,
    Read.val_main_c_apply]
  exact wrap_nonneg _ _ (row_small r)

private theorem v32_eq (r : Fin 16384) : Read.val_main_v32 (F := Ideal) (ix1 r) = BitVec.ofNat 32 r.val := by
  rw [Read.val_main_v32_apply, Read.val_main_v29_apply, Read.val_main_v12_apply, Read.val_main_v28_apply,
    Read.val_main_c_5_apply]
  exact wrap_nonneg _ _ (row_small r)

private theorem v47_eq (r : Fin 16384) : Read.val_main_v47 (F := Ideal) (ix1 r) = BitVec.ofNat 32 r.val := by
  rw [Read.val_main_v47_apply, Read.val_main_v44_apply, Read.val_main_v12_apply, Read.val_main_v43_apply,
    Read.val_main_c_9_apply]
  exact wrap_nonneg _ _ (row_small r)

/-- The second index column: the target words; one below 1000 is not negative, so the wrap-around leaves it alone. -/
private theorem v22_eq (x1 : Targets) (r : Fin 16384) (h : (x1 (ix1 r)).toNat < 1000) :
    Read.val_main_v22 (F := Ideal) x1 (ix1 r) = x1 (ix1 r) := by
  rw [Read.val_main_v22_apply, Read.val_main_v19_apply, Read.val_main_v18_apply, Read.val_main_c_3_apply]
  exact wrap_nonneg _ _ (by omega)

private theorem v37_eq (x1 : Targets) (r : Fin 16384) (h : (x1 (ix1 r)).toNat < 1000) :
    Read.val_main_v37 (F := Ideal) x1 (ix1 r) = x1 (ix1 r) := by
  rw [Read.val_main_v37_apply, Read.val_main_v34_apply, Read.val_main_v33_apply, Read.val_main_c_7_apply]
  exact wrap_nonneg _ _ (by omega)

private theorem v52_eq (x1 : Targets) (r : Fin 16384) (h : (x1 (ix1 r)).toNat < 1000) :
    Read.val_main_v52 (F := Ideal) x1 (ix1 r) = x1 (ix1 r) := by
  rw [Read.val_main_v52_apply, Read.val_main_v49_apply, Read.val_main_v48_apply, Read.val_main_c_11_apply]
  exact wrap_nonneg _ _ (by omega)

/-- The gather at the joined index columns: when the first column holds the row numbers and the second a word whose
    value is a column `c`, row `r` of the result is the operand at `(r, c)`. -/
private theorem gather_at {α : Type} (x : S16384x1000.Idx → α)
    (h : Shape.Concatenates [S16384x1, S16384x1] S16384x2 1) (a b : S16384x1.Idx → BitVec 32)
    (r : Fin 16384) (c : Fin 1000)
    (ha : a (ix2 r (0 : Fin 1)) = BitVec.ofNat 32 r.val) (hb : (b (ix2 r (0 : Fin 1))).toNat = c.val) :
    Host.gather gather_S16384x1000_S16384x2_S16384_n_01_n_n_01_1_11 x
      (concatenate S16384x2 1 [⟨S16384x1, a⟩, ⟨S16384x1, b⟩] h) (ix1 r) = x (ix2 r c) := by
  refine gather_point x _ r c ?_ ?_
  · rw [concat_col0, ha]
    exact StableHlo.Predicate.toInt_ofNat_small r.val (by have := r.isLt; omega)
  · rw [concat_col1, StableHlo.Predicate.toInt_eq_toNat_of_lt (by rw [hb]; have := c.isLt; omega), hb]

/-- The index of a column array's row, read through the broadcast that made the column, is the row. -/
private theorem idx_col (r : Fin 16384) : Read.idx_main_v23 (ix2 r (0 : Fin 1)) = ix1 r :=
  funext fun a => Fin.ext (by match a with | ⟨0, _⟩ => rfl)

/-- The probability at the target column. -/
private theorem v26_eq (x0 : Logits) (x1 : Targets) (r : Fin 16384) (h : (x1 (ix1 r)).toNat < 1000) :
    Read.val_main_v26 (F := Ideal) x0 x1 (ix1 r) = prob x0 r (colOf x1 r) := by
  have ha : Read.val_main_v23 (F := Ideal) (ix2 r (0 : Fin 1)) = BitVec.ofNat 32 r.val := by
    rw [Read.val_main_v23_apply, idx_col, v17_eq]
  have hb : (Read.val_main_v24 (F := Ideal) x1 (ix2 r (0 : Fin 1))).toNat = (colOf x1 r).val := by
    rw [Read.val_main_v24_apply]
    show (Read.val_main_v22 (F := Ideal) x1 (Read.idx_main_v23 (ix2 r (0 : Fin 1)))).toNat = _
    rw [idx_col, v22_eq x1 r h, colOf_val x1 r h]
  unfold Read.val_main_v26 Read.val_main_v25
  rw [gather_at _ _ _ _ r (colOf x1 r) ha hb, v10_eq]

/-- The mixture of the probabilities at the target column. -/
private theorem v41_eq (x0 : Logits) (x1 : Targets) (x2 : Trans) (r : Fin 16384) (h : (x1 (ix1 r)).toNat < 1000) :
    Read.val_main_v41 (F := Ideal) x0 x1 x2 (ix1 r) = mixProb x0 x2 r (colOf x1 r) := by
  have ha : Read.val_main_v38 (F := Ideal) (ix2 r (0 : Fin 1)) = BitVec.ofNat 32 r.val := by
    rw [Read.val_main_v38_apply]
    show Read.val_main_v32 (F := Ideal) (Read.idx_main_v23 (ix2 r (0 : Fin 1))) = _
    rw [idx_col, v32_eq]
  have hb : (Read.val_main_v39 (F := Ideal) x1 (ix2 r (0 : Fin 1))).toNat = (colOf x1 r).val := by
    rw [Read.val_main_v39_apply]
    show (Read.val_main_v37 (F := Ideal) x1 (Read.idx_main_v23 (ix2 r (0 : Fin 1)))).toNat = _
    rw [idx_col, v37_eq x1 r h, colOf_val x1 r h]
  unfold Read.val_main_v41 Read.val_main_v40
  rw [gather_at _ _ _ _ r (colOf x1 r) ha hb, v27_eq]

/-- The log-probability at the target column. -/
private theorem v56_eq (x0 : Logits) (x1 : Targets) (r : Fin 16384) (h : (x1 (ix1 r)).toNat < 1000) :
    Read.val_main_v56 (F := Ideal) x0 x1 (ix1 r)
      = (x0 (ix2 r (colOf x1 r)) - rowMax x0 r) - Ideal.log (rowSum x0 r) := by
  have ha : Read.val_main_v53 (F := Ideal) (ix2 r (0 : Fin 1)) = BitVec.ofNat 32 r.val := by
    rw [Read.val_main_v53_apply]
    show Read.val_main_v47 (F := Ideal) (Read.idx_main_v23 (ix2 r (0 : Fin 1))) = _
    rw [idx_col, v47_eq]
  have hb : (Read.val_main_v54 (F := Ideal) x1 (ix2 r (0 : Fin 1))).toNat = (colOf x1 r).val := by
    rw [Read.val_main_v54_apply]
    show (Read.val_main_v52 (F := Ideal) x1 (Read.idx_main_v23 (ix2 r (0 : Fin 1)))).toNat = _
    rw [idx_col, v52_eq x1 r h, colOf_val x1 r h]
  unfold Read.val_main_v56 Read.val_main_v55
  rw [gather_at _ _ _ _ r (colOf x1 r) ha hb, v11_eq]

/-- A row's term: the quotient of the first two reads times minus the third. -/
private theorem v58_eq (x0 : Logits) (x1 : Targets) (x2 : Trans) (r : Fin 16384) (h : (x1 (ix1 r)).toNat < 1000) :
    Read.val_main_v58 (F := Ideal) x0 x1 x2 (ix1 r) = termRef x0 x2 r (colOf x1 r) := by
  rw [Read.val_main_v58_apply, Read.val_main_v42_apply, Read.val_main_v57_apply, v26_eq x0 x1 r h,
    v41_eq x0 x1 x2 r h, v56_eq x0 x1 r h]
  rfl

/-- The reference's result, as a function of the three argument arrays, is the loss in the reference's spelling,
    each row at the column its target word names, when every target word is below 1000. -/
theorem ref_eq (x0 : Logits) (x1 : Targets) (x2 : Trans) (hr : ∀ r : Fin 16384, (x1 (ix1 r)).toNat < 1000) :
    Cert.ReferenceIdeal.Read.val_main_v59 (F := Ideal) x0 x1 x2 = fun _ => totalRef x0 x2 (colOf x1) := by
  funext i
  rw [Read.val_main_v59_apply, Read.val_main_cst_13_apply]
  show Ideal.ofBits .f32 0x00000000#32 + _ = _
  rw [Cert.ERealBN.ofBits_zero, zero_add]
  unfold totalRef
  refine Fintype.sum_equiv ⟨fun j => j 0, fun r => ix1 r, fun j => (eq_ix1 j).symm, fun _ => rfl⟩ _ _ fun j => ?_
  exact (congrArg (Read.val_main_v58 (F := Ideal) x0 x1 x2) (eq_ix1 j)).trans (v58_eq x0 x1 x2 (j 0) (hr (j 0)))

end Cert.ReferenceIdeal.RefValue

end
-- ==== Proof.lean ====
/- The kernel and its reference compute the same loss.

   Both programs take logits `x` (16384 rows of 1000), one target word per row and a 1000 by 1000 transition
   matrix `T`, and return one number. With `M` a row's largest entry, `e = exp (x - M)` its shifted
   exponentials, `s` their sum and `t` the row's target column, the reference adds over the rows

       (p t / Σ k, p k · T k t) · -((x t - M) - log s),        p = e / s,

   the importance weight of the row times its cross entropy. The kernel never forms `p`: it adds

       (e t / Σ k, e k · T k t) · (log s - (x t - M))

   over blocks of 512 rows, and the host adds the 32 block sums.

   The precondition makes every logit and every entry of `T` a real number and puts every target in [0, 1000).
   On real data `s` is a positive real and cancels from the weight (and when the mixture `Σ k, e k · T k t` is zero,
   both weights are a positive real over zero, plus infinity); the two spellings of the cross entropy agree; and the
   sum over the rows does not depend on how it is grouped. The range of the targets is what makes the two programs
   read the same column: the kernel clips a target to [0, 999], the reference wraps a negative one around, and on
   [0, 1000) both leave it alone.

   The kernel's run and the frames of both kernels are the generated ones; the reference's run is the generated
   run; what each run's result IS, as a function of the arguments, is read off by hand in the modules imported
   below, and this file joins them. -/
import proofs.«417299_j43430709297431_3_alg».proof.Defs
import proofs.«417299_j43430709297431_3_alg».proof.Proof.Gen.Kernel.Frame
import proofs.«417299_j43430709297431_3_alg».proof.Proof.Gen.KernelIdeal.Frame
import proofs.«417299_j43430709297431_3_alg».proof.Proof.Gen.ReferenceIdeal
import proofs.«417299_j43430709297431_3_alg».proof.Proof.Gen.Pre_finite_inputs
import proofs.«417299_j43430709297431_3_alg».proof.Proof.RefRun
import proofs.«417299_j43430709297431_3_alg».proof.Proof.RefRead
import proofs.«417299_j43430709297431_3_alg».proof.Proof.Spec
import proofs.«417299_j43430709297431_3_alg».proof.Proof.Law
import proofs.«417299_j43430709297431_3_alg».proof.Proof.PreFacts
import proofs.«417299_j43430709297431_3_alg».proof.Proof.KernelWindows
import proofs.«417299_j43430709297431_3_alg».proof.Proof.KernelArray
import proofs.«417299_j43430709297431_3_alg».proof.Proof.RefValue
import Idealize.ShloMosaic.Adequacy
import Idealize.ShloMosaic.Init

noncomputable section

namespace Cert.Proof

open Idealize.ShloMosaic Idealize.ShloMosaic.TcCoe Idealize.SL.Sem Cert.Loss
open scoped BigOperators

/-- The word-level kernel runs and leaves its arguments alone: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

section Kernel

open Cert.KernelIdeal Cert.KernelIdeal.Gen Cert.KernelIdeal.Windows

/-- The idealized kernel's run, with its result named: on targets below 1000 the result buffer ends at the sum of
    the 32 block sums, and the arguments end as they began. -/
theorem kernel_run (m : (ℓ : Loc nD τ sig) → Buf (Elt Ideal) ℓ) (ρ : Dev nD → PrngReg)
    (hr : ∀ (c : Dev nD) (r : Fin 16384), (targets m c (ValueIdx.ix1 r)).toNat < 1000) :
    θ_run (Cert.KernelIdeal.defs (F := Ideal)) (onTc (τ := τ) (main (F := Ideal))) ⟨m, fun _ => 0, ρ⟩ (fun r => ∀ c : Dev nD,
      r.2.mem ((c.tc : Thread nD τ).loc main_v6)
          = (fun _ => ∑ b : Fin 32, blockTotal (logits m c) (trans m c) (colOf (targets m c)) b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans
        (Cert.KernelIdeal.Result.kernel_result m c (hr c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Kernel

/-- From memories that agree on the arguments, under the precondition, both idealized programs end with the same
    number: the reference's result is the loss in its own spelling, which on real data is the kernel's spelling, which
    is the sum of the block sums the kernel returns. -/
theorem algebraic : Cert.algebraic_KernelIdeal_ReferenceIdeal := by
  intro m ρ m' ρ' hpre hagree
  have hf := fun c : Dev Cert.KernelIdeal.nD =>
    facts_of_pre (Cert.KernelIdeal.Windows.logits m c) (Cert.KernelIdeal.Windows.targets m c)
      (Cert.KernelIdeal.Windows.trans m c) (hpre c)
  refine ⟨_, kernel_run m ρ (fun c => (hf c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2]
  exact (Cert.ReferenceIdeal.RefValue.ref_eq _ _ _ (hf c).2.2).trans
    (funext fun _ => (totalRef_eq_total _ _ (hf c).1 (hf c).2.1 _).trans (total_eq_blocks _ _ _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
